-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x1024 : Shape := ⟨3, ![16, 1024, 1024]⟩
abbrev S2000x1024 : Shape := ⟨2, ![2000, 1024]⟩
abbrev S_ : Shape := ⟨0, ![]⟩

class Facts : Prop where
  bcast_S_S16x1024x1024 : S_.BroadcastsInDim S16x1024x1024 (![] : Fin 0 → Fin S16x1024x1024.rank)
  reducesTo_S16x1024x1024_S_d0_1_2 : S16x1024x1024.ReducesTo [0, 1, 2] S_
  h_S_ : 0 < S_.numel
  bcast_S_S2000x1024 : S_.BroadcastsInDim S2000x1024 (![] : Fin 0 → Fin S2000x1024.rank)
  reducesTo_S2000x1024_S_d0_1 : S2000x1024.ReducesTo [0, 1] S_

variable [Facts]

def fn_part1 {F : FTy → Type} [FloatOps F] (main_v13 : IVec S_ 1) (main_v15 : IVec S2000x1024 1) (main_c_5 : IVec S_ 1) : IVec S_ 1 :=
  let main_v16 : IVec S_ 1 := (fun x v => Host.reduce IntOp.andi x v reducesTo_S2000x1024_S_d0_1 h_S_) main_v15 main_c_5
  let main_v17 : IVec S_ 1 := andi main_v13 main_v16
  main_v17

def fn {F : FTy → Type} [FloatOps F] (main_arg0 : FVec F S16x1024x1024 .f32) (main_arg1 : FVec F S2000x1024 .f32) (main_arg2 : FVec F S2000x1024 .f32) : IVec S_ 1 :=
  let main_v0 : FVec F S16x1024x1024 .f32 := Host.absf main_arg0
  let main_cst : FVec F S_ .f32 := constant S_ .f32 0x7F800000#32
  let main_v1 : FVec F S16x1024x1024 .f32 := broadcastInDim S16x1024x1024 ![] bcast_S_S16x1024x1024 main_cst
  let main_v2 : IVec S16x1024x1024 1 := cmpf .olt main_v0 main_v1
  let main_c : IVec S_ 1 := constantI S_ 1 1#1
  let main_v3 : IVec S_ 1 := (fun x v => Host.reduce IntOp.andi x v reducesTo_S16x1024x1024_S_d0_1_2 h_S_) main_v2 main_c
  let main_v4 : FVec F S2000x1024 .f32 := Host.absf main_arg1
  let main_cst_0 : FVec F S_ .f32 := constant S_ .f32 0x7F800000#32
  let main_v5 : FVec F S2000x1024 .f32 := broadcastInDim S2000x1024 ![] bcast_S_S2000x1024 main_cst_0
  let main_v6 : IVec S2000x1024 1 := cmpf .olt main_v4 main_v5
  let main_c_1 : IVec S_ 1 := constantI S_ 1 1#1
  let main_v7 : IVec S_ 1 := (fun x v => Host.reduce IntOp.andi x v reducesTo_S2000x1024_S_d0_1 h_S_) main_v6 main_c_1
  let main_v8 : IVec S_ 1 := andi main_v3 main_v7
  let main_v9 : FVec F S2000x1024 .f32 := Host.absf main_arg2
  let main_cst_2 : FVec F S_ .f32 := constant S_ .f32 0x7F800000#32
  let main_v10 : FVec F S2000x1024 .f32 := broadcastInDim S2000x1024 ![] bcast_S_S2000x1024 main_cst_2
  let main_v11 : IVec S2000x1024 1 := cmpf .olt main_v9 main_v10
  let main_c_3 : IVec S_ 1 := constantI S_ 1 1#1
  let main_v12 : IVec S_ 1 := (fun x v => Host.reduce IntOp.andi x v reducesTo_S2000x1024_S_d0_1 h_S_) main_v11 main_c_3
  let main_v13 : IVec S_ 1 := andi main_v8 main_v12
  let main_cst_4 : FVec F S_ .f32 := constant S_ .f32 0x00000000#32
  let main_v14 : FVec F S2000x1024 .f32 := broadcastInDim S2000x1024 ![] bcast_S_S2000x1024 main_cst_4
  let main_v15 : IVec S2000x1024 1 := cmpf .ogt main_arg2 main_v14
  let main_c_5 : IVec S_ 1 := constantI S_ 1 1#1
  fn_part1 (F := F) main_v13 main_v15 main_c_5
-- ==== Kernel.lean ====
abbrev S16x1024x1024 : Shape := ⟨3, ![16, 1024, 1024]⟩
abbrev S2000x1024 : Shape := ⟨2, ![2000, 1024]⟩
abbrev S16384x1024 : Shape := ⟨2, ![16384, 1024]⟩
abbrev S_ : Shape := ⟨0, ![]⟩
abbrev S2000 : Shape := ⟨1, ![2000]⟩
abbrev S2048x1024 : Shape := ⟨2, ![2048, 1024]⟩
abbrev S2048 : Shape := ⟨1, ![2048]⟩
abbrev S1x2048 : Shape := ⟨2, ![1, 2048]⟩
abbrev S1024x2048 : Shape := ⟨2, ![1024, 2048]⟩
abbrev S16384x2048 : Shape := ⟨2, ![16384, 2048]⟩
abbrev S512x1024 : Shape := ⟨2, ![512, 1024]⟩
abbrev S512x2048 : Shape := ⟨2, ![512, 2048]⟩
abbrev S16384x2000 : Shape := ⟨2, ![16384, 2000]⟩
abbrev S16x1024x2000 : Shape := ⟨3, ![16, 1024, 2000]⟩

abbrev nBuf : Space → Nat
  | .hbm => 42
  | .vmem => 7
  | .smem => 0
  | _ => 0

abbrev bufTy : (tb : Table) → Fin (tcTables nBuf tb) → BufTy
  | .hbm, ⟨0, _⟩ => ⟨S16x1024x1024, .f32⟩
  | .hbm, ⟨1, _⟩ => ⟨S2000x1024, .f32⟩
  | .hbm, ⟨2, _⟩ => ⟨S2000x1024, .f32⟩
  | .hbm, ⟨3, _⟩ => ⟨S16384x1024, .f32⟩
  | .hbm, ⟨4, _⟩ => ⟨S_, .f32⟩
  | .hbm, ⟨5, _⟩ => ⟨S2000x1024, .f32⟩
  | .hbm, ⟨6, _⟩ => ⟨S2000x1024, .f32⟩
  | .hbm, ⟨7, _⟩ => ⟨S2000x1024, .f32⟩
  | .hbm, ⟨8, _⟩ => ⟨S2000x1024, .f32⟩
  | .hbm, ⟨9, _⟩ => ⟨S2000x1024, .f32⟩
  | .hbm, ⟨10, _⟩ => ⟨S_, .f32⟩
  | .hbm, ⟨11, _⟩ => ⟨S2000, .f32⟩
  | .hbm, ⟨12, _⟩ => ⟨S2000x1024, .f32⟩
  | .hbm, ⟨13, _⟩ => ⟨S_, .f32⟩
  | .hbm, ⟨14, _⟩ => ⟨S2000, .f32⟩
  | .hbm, ⟨15, _⟩ => ⟨S_, .f32⟩
  | .hbm, ⟨16, _⟩ => ⟨S2000, .f32⟩
  | .hbm, ⟨17, _⟩ => ⟨S2000, .f32⟩
  | .hbm, ⟨18, _⟩ => ⟨S_, .f32⟩
  | .hbm, ⟨19, _⟩ => ⟨S2000, .f32⟩
  | .hbm, ⟨20, _⟩ => ⟨S2000, .f32⟩
  | .hbm, ⟨21, _⟩ => ⟨S_, .f32⟩
  | .hbm, ⟨22, _⟩ => ⟨S2000, .f32⟩
  | .hbm, ⟨23, _⟩ => ⟨S2000, .f32⟩
  | .hbm, ⟨24, _⟩ => ⟨S2000, .f32⟩
  | .hbm, ⟨25, _⟩ => ⟨S_, .i32⟩
  | .hbm, ⟨26, _⟩ => ⟨S_, .f32⟩
  | .hbm, ⟨27, _⟩ => ⟨S2048x1024, .f32⟩
  | .hbm, ⟨28, _⟩ => ⟨S_, .i32⟩
  | .hbm, ⟨29, _⟩ => ⟨S_, .f32⟩
  | .hbm, ⟨30, _⟩ => ⟨S2048x1024, .f32⟩
  | .hbm, ⟨31, _⟩ => ⟨S_, .i32⟩
  | .hbm, ⟨32, _⟩ => ⟨S_, .f32⟩
  | .hbm, ⟨33, _⟩ => ⟨S2048, .f32⟩
  | .hbm, ⟨34, _⟩ => ⟨S1x2048, .f32⟩
  | .hbm, ⟨35, _⟩ => ⟨S1024x2048, .f32⟩
  | .hbm, ⟨36, _⟩ => ⟨S1024x2048, .bf16⟩
  | .hbm, ⟨37, _⟩ => ⟨S1024x2048, .f32⟩
  | .hbm, ⟨38, _⟩ => ⟨S1024x2048, .bf16⟩
  | .hbm, ⟨39, _⟩ => ⟨S16384x2048, .f32⟩
  | .hbm, ⟨40, _⟩ => ⟨S16384x2000, .f32⟩
  | .hbm, ⟨41, _⟩ => ⟨S16x1024x2000, .f32⟩
  | .local _ .vmem, ⟨0, _⟩ => ⟨S512x1024, .f32⟩
  | .local _ .vmem, ⟨1, _⟩ => ⟨S512x1024, .f32⟩
  | .local _ .vmem, ⟨2, _⟩ => ⟨S1024x2048, .bf16⟩
  | .local _ .vmem, ⟨3, _⟩ => ⟨S1024x2048, .bf16⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | _, _ => ⟨S16x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_cst_4 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c : Ref sig .tc := ⟨.hbm, 25, rfl⟩
abbrev main_call0_v0 : Ref sig .tc := ⟨.hbm, 26, rfl⟩
abbrev main_v16 : Ref sig .tc := ⟨.hbm, 27, rfl⟩
abbrev main_c_5 : Ref sig .tc := ⟨.hbm, 28, rfl⟩
abbrev main_call1_v0 : Ref sig .tc := ⟨.hbm, 29, rfl⟩
abbrev main_v17 : Ref sig .tc := ⟨.hbm, 30, rfl⟩
abbrev main_c_6 : Ref sig .tc := ⟨.hbm, 31, rfl⟩
abbrev main_call2_v0 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S16x1024x1024_S16384x1024 : S16x1024x1024.ShapeCasts S16384x1024
  bcast_S_S2000x1024 : S_.BroadcastsInDim S2000x1024 (![] : Fin 0 → Fin S2000x1024.rank)
  reducesTo_S2000x1024_S2000_d1 : S2000x1024.ReducesTo [1] S2000
  h_S_ : 0 < S_.numel
  bcast_S_S2000 : S_.BroadcastsInDim S2000 (![] : Fin 0 → Fin S2000.rank)
  pads_S2000x1024_S2048x1024_0480_000 : S2000x1024.Pads (![0, 0] : Fin 2 → Nat) ![48, 0] ![0, 0] S2048x1024
  pads_S2000_S2048_0480 : S2000.Pads (![0] : Fin 1 → Nat) ![48] ![0] S2048
  shapeCasts_S2048_S1x2048 : S2048.ShapeCasts S1x2048
  transposes_S2048x1024_S1024x2048_1_0 : S2048x1024.Transposes [1, 0] S1024x2048
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  inb_S512x2048_S512x2048_0_0 : ∀ a, (![0, 0] : Fin 2 → Nat) a + S512x2048.size a ≤ S512x2048.size a
  h_S512x2048 : 0 < S512x2048.numel
  slices_S16384x2048_S16384x2000_0_0 : S16384x2048.Slices ![0, 0] S16384x2000
  shapeCasts_S16384x2000_S16x1024x2000 : S16384x2000.ShapeCasts S16x1024x2000
  dot_S512x1024_S1024x2048_S512x2048_1_0_0_1_n_n_wf : DotDims.WF S512x1024 S1024x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S1024x2048.size a
  hwx0_1 : ∀ i : grid0.Coords, EltTy.bits .bf16 = 32 ∨ (Rect.block (s := S1024x2048) S1024x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S1024x2048.size a
  hwx0_2 : ∀ i : grid0.Coords, EltTy.bits .bf16 = 32 ∨ (Rect.block (s := S1024x2048) S1024x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S16384x2048.size a
  hwx0_4 : ∀ i : grid0.Coords, EltTy.bits .f32 = 32 ∨ (Rect.block (s := S16384x2048) S512x2048.size (cc0_transform_4 i) (hinb0_4 i)).WholeWords (EltTy.packing .f32)

variable [Facts₀]

def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S1024x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v23) S1024x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x1024x1024 : Shape := ⟨3, ![16, 1024, 1024]⟩
abbrev S2000x1024 : Shape := ⟨2, ![2000, 1024]⟩
abbrev S_ : Shape := ⟨0, ![]⟩
abbrev S16x1024x2000 : Shape := ⟨3, ![16, 1024, 2000]⟩
abbrev S2000 : Shape := ⟨1, ![2000]⟩
abbrev S1x1x2000 : Shape := ⟨3, ![1, 1, 2000]⟩

abbrev nBuf : Space → Nat
  | .hbm => 38
  | .vmem => 0
  | .smem => 0
  | _ => 0

abbrev bufTy : (tb : Table) → Fin (tcTables nBuf tb) → BufTy
  | .hbm, ⟨0, _⟩ => ⟨S16x1024x1024, .f32⟩
  | .hbm, ⟨1, _⟩ => ⟨S2000x1024, .f32⟩
  | .hbm, ⟨2, _⟩ => ⟨S2000x1024, .f32⟩
  | .hbm, ⟨3, _⟩ => ⟨S_, .f32⟩
  | .hbm, ⟨4, _⟩ => ⟨S2000x1024, .f32⟩
  | .hbm, ⟨5, _⟩ => ⟨S2000x1024, .f32⟩
  | .hbm, ⟨6, _⟩ => ⟨S16x1024x1024, .f32⟩
  | .hbm, ⟨7, _⟩ => ⟨S16x1024x2000, .f32⟩
  | .hbm, ⟨8, _⟩ => ⟨S2000x1024, .f32⟩
  | .hbm, ⟨9, _⟩ => ⟨S16x1024x2000, .f32⟩
  | .hbm, ⟨10, _⟩ => ⟨S_, .f32⟩
  | .hbm, ⟨11, _⟩ => ⟨S16x1024x2000, .f32⟩
  | .hbm, ⟨12, _⟩ => ⟨S16x1024x2000, .f32⟩
  | .hbm, ⟨13, _⟩ => ⟨S16x1024x2000, .f32⟩
  | .hbm, ⟨14, _⟩ => ⟨S2000x1024, .f32⟩
  | .hbm, ⟨15, _⟩ => ⟨S2000x1024, .f32⟩
  | .hbm, ⟨16, _⟩ => ⟨S_, .f32⟩
  | .hbm, ⟨17, _⟩ => ⟨S2000, .f32⟩
  | .hbm, ⟨18, _⟩ => ⟨S1x1x2000, .f32⟩
  | .hbm, ⟨19, _⟩ => ⟨S16x1024x2000, .f32⟩
  | .hbm, ⟨20, _⟩ => ⟨S16x1024x2000, .f32⟩
  | .hbm, ⟨21, _⟩ => ⟨S2000x1024, .f32⟩
  | .hbm, ⟨22, _⟩ => ⟨S_, .f32⟩
  | .hbm, ⟨23, _⟩ => ⟨S2000, .f32⟩
  | .hbm, ⟨24, _⟩ => ⟨S_, .f32⟩
  | .hbm, ⟨25, _⟩ => ⟨S2000, .f32⟩
  | .hbm, ⟨26, _⟩ => ⟨S2000, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S16x1024x2000, .f32⟩
  | .hbm, ⟨31, _⟩ => ⟨S16x1024x2000, .f32⟩
  | .hbm, ⟨32, _⟩ => ⟨S_, .f32⟩
  | .hbm, ⟨33, _⟩ => ⟨S16x1024x2000, .f32⟩
  | .hbm, ⟨34, _⟩ => ⟨S16x1024x2000, .f32⟩
  | .hbm, ⟨35, _⟩ => ⟨S1x1x2000, .f32⟩
  | .hbm, ⟨36, _⟩ => ⟨S16x1024x2000, .f32⟩
  | .hbm, ⟨37, _⟩ => ⟨S16x1024x2000, .f32⟩
  | _, _ => ⟨S16x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_cst_5 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]

class Facts₀ : Prop where
  bcast_S_S2000x1024 : S_.BroadcastsInDim S2000x1024 (![] : Fin 0 → Fin S2000x1024.rank)
  bcast_S_S16x1024x2000 : S_.BroadcastsInDim S16x1024x2000 (![] : Fin 0 → Fin S16x1024x2000.rank)
  reducesTo_S2000x1024_S2000_d1 : S2000x1024.ReducesTo [1] S2000
  h_S_ : 0 < S_.numel
  bcast_S2000_S1x1x2000_2 : S2000.BroadcastsInDim S1x1x2000 (![2] : Fin 1 → Fin S1x1x2000.rank)
  bcast_S1x1x2000_S16x1024x2000_0_1_2 : S1x1x2000.BroadcastsInDim S16x1024x2000 (![0, 1, 2] : Fin 3 → Fin S16x1024x2000.rank)
  bcast_S_S2000 : S_.BroadcastsInDim S2000 (![] : Fin 0 → Fin S2000.rank)
  dot_S16x1024x1024_S2000x1024_S16x1024x2000_2_1_01_0_n_n_wf : DotDims.WF S16x1024x1024 S2000x1024 S16x1024x2000 [2] [1] [0, 1] [0] [] []

variable [Facts₀]

def dot_S16x1024x1024_S2000x1024_S16x1024x2000_2_1_01_0_n_n : DotDims S16x1024x1024 S2000x1024 S16x1024x2000 where
  lhsContracting := [2]
  rhsContracting := [1]
  lhsNonContracting := [0, 1]
  rhsNonContracting := [0]
  lhsBatch := []
  rhsBatch := []
  wf := dot_S16x1024x1024_S2000x1024_S16x1024x2000_2_1_01_0_n_n_wf

class Facts : Prop extends Facts₀ where

variable [Facts]
-- ==== Proof.Spec.lean ====
/-
  The quantity both programs compute, written once over the argument arrays.

  For a frame `(b, t)` of `x` and a mixture component `m` with mean `mu m` and diagonal variance `cov m`,
  the diagonal-Gaussian log-likelihood is
      -1/2 · (D·log 2π + Σ_k (x_k − mu_k)² / cov_k) − 1/2 · Σ_k log cov_k,        D = 1024.
  Both programs expand the square with the precision `1 / cov_k`:
      Σ_k x_k² / cov_k  −  2 · Σ_k x_k · (mu_k / cov_k)  +  Σ_k mu_k² / cov_k .
  The reference adds the three sums and the constant inside one bracket and halves the bracket
  (`refValue`); the kernel halves the two sums that depend on the frame, and adds a per-component
  term that already holds the halved constant, the halved third sum and the log-determinant
  (`kerValue`).  On real numbers the two are equal by distributivity; on the extended reals
  distributivity needs the three sums to be finite, which is where the precondition comes in
  (Algebra.lean).
-/
import Idealize.ShloMosaic.PureOps.Ideal
import Idealize.ShloMosaic.Lib.ValueIdx

noncomputable section

namespace Cert.Loglik

open Idealize.ShloMosaic Idealize.ShloMosaic.ValueIdx

/-- The frames: 16 × 1024 rows of 1024 features. -/
abbrev XArr : Type := FVec Ideal ⟨3, ![16, 1024, 1024]⟩ .f32
/-- A per-component table: 2000 components of 1024 features (the means, the variances). -/
abbrev MArr : Type := FVec Ideal ⟨2, ![2000, 1024]⟩ .f32

/-! The literals of the two programs, each the extended real its f32 word denotes. -/

/-- `1.0`, the numerator of the precision. -/
def cOne : EReal := Ideal.ofBits .f32 0x3F800000#32
/-- `0.0`, the initial value of every host sum. -/
def cZero : EReal := Ideal.ofBits .f32 0x00000000#32
/-- `2.0`, the factor of the cross term. -/
def cTwo : EReal := Ideal.ofBits .f32 0x40000000#32
/-- `-0.5`. -/
def cNegHalf : EReal := Ideal.ofBits .f32 0xBF000000#32
/-- The kernel's folded constant `1024 · log 2π` (one f32 word). -/
def cDimLog2pi : EReal := Ideal.ofBits .f32 0x44EB3F8E#32
/-- The reference's `1024.0`. -/
def cDim : EReal := Ideal.ofBits .f32 0x44800000#32
/-- The reference's f32 `log 2π`. -/
def cLog2pi : EReal := Ideal.ofBits .f32 0x3FEB3F8E#32

/-- The precision of feature `k` of component `m`: `1 / cov m k`. -/
def prec (cov : MArr) (m : Fin 2000) (k : Fin 1024) : EReal := Ideal.div cOne (cov (ix2 m k))

/-- `Σ_k x_k² · prec_k`. -/
def sqTerm (x : XArr) (cov : MArr) (b : Fin 16) (t : Fin 1024) (m : Fin 2000) : EReal :=
  ∑ k : Fin 1024, (x (ix3 b t k) * x (ix3 b t k)) * prec cov m k

/-- `Σ_k x_k · (mu_k · prec_k)`. -/
def crossTerm (x : XArr) (mu cov : MArr) (b : Fin 16) (t : Fin 1024) (m : Fin 2000) : EReal :=
  ∑ k : Fin 1024, x (ix3 b t k) * (mu (ix2 m k) * prec cov m k)

/-- `0 + Σ_k mu_k² · prec_k`, a host sum from its initial value. -/
def meanTerm (mu cov : MArr) (m : Fin 2000) : EReal :=
  cZero + ∑ k : Fin 1024, (mu (ix2 m k) * mu (ix2 m k)) * prec cov m k

/-- `0 + Σ_k log cov_k`, a host sum from its initial value. -/
def logTerm (cov : MArr) (m : Fin 2000) : EReal :=
  cZero + ∑ k : Fin 1024, Ideal.log (cov (ix2 m k))

/-- The reference's value at `(b, t, m)`: one bracket, halved, plus the halved log-determinant. -/
def refValue (x : XArr) (mu cov : MArr) (b : Fin 16) (t : Fin 1024) (m : Fin 2000) : EReal :=
  cNegHalf * (cDim * cLog2pi + ((sqTerm x cov b t m - cTwo * crossTerm x mu cov b t m) + meanTerm mu cov m))
    + cNegHalf * logTerm cov m

/-- The kernel's value at `(b, t, m)`: the halved frame-dependent part plus the per-component term. -/
def kerValue (x : XArr) (mu cov : MArr) (b : Fin 16) (t : Fin 1024) (m : Fin 2000) : EReal :=
  cNegHalf * (sqTerm x cov b t m - cTwo * crossTerm x mu cov b t m)
    + (cNegHalf * (cDimLog2pi + meanTerm mu cov m) + cNegHalf * logTerm cov m)

end Cert.Loglik

end
-- ==== Proof.Domain.lean ====
/-
  What the precondition says of the argument arrays: every entry is a real number, and every variance is positive.
-/
import proofs.«118142_j10831907520641_1_alg».proof.Pre_finite_inputs
import proofs.«118142_j10831907520641_1_alg».proof.Proof.Gen.Pre_finite_inputs
import proofs.«118142_j10831907520641_1_alg».proof.Proof.Spec
import Idealize.ShloMosaic.Lib.ReduceAll
import Idealize.ShloMosaic.PureOps.Ideal.Laws

noncomputable section

namespace Cert.Loglik

open Idealize.ShloMosaic Idealize.ShloMosaic.ValueIdx

/-- The word `0x7F800000` denotes `⊤`. -/
private theorem ofBits_inf : Ideal.ofBits .f32 0x7F800000#32 = (⊤ : EReal) := by
  simp [Ideal.ofBits, Ideal.ieee]

/-- An extended real whose absolute value `max a (-a)` is below `⊤` is a real number. -/
private theorem real_of_abs_lt_top (a : EReal) (h : max a (-a) < ⊤) : ∃ r : ℝ, a = (r : EReal) := by
  induction a using EReal.rec with
  | bot => simp at h
  | coe r => exact ⟨r, rfl⟩
  | top => simp at h

/-- An ordered "less than" that came out 1 is the strict order. -/
private theorem lt_of_cmp_olt {a b : EReal} (h : Ideal.cmp .olt a b = 1#1) : a < b := by
  by_contra hn
  simp [Ideal.cmp, hn] at h

/-- An ordered "greater than" that came out 1 is the strict order, reversed. -/
private theorem lt_of_cmp_ogt {a b : EReal} (h : Ideal.cmp .ogt a b = 1#1) : b < a := by
  by_contra hn
  simp [Ideal.cmp, hn] at h

/-- The printed precondition, all ones: `x`, `mu` and `cov` hold real numbers, and `cov` positive ones. -/
theorem domain_of_pre (x : XArr) (mu cov : MArr)
    (h : Cert.Pre_finite_inputs.fn (F := Ideal) x mu cov = fun _ => 1#1) :
    (∀ i, ∃ r : ℝ, x i = (r : EReal)) ∧ (∀ i, ∃ r : ℝ, mu i = (r : EReal))
      ∧ (∀ i, ∃ r : ℝ, cov i = (r : EReal) ∧ 0 < r) := by
  have h0 := congrFun h ValueIdx.ix0
  dsimp only [Cert.Pre_finite_inputs.fn, Cert.Pre_finite_inputs.fn_part1] at h0
  haveI : Subsingleton Cert.Pre_finite_inputs.S_.Idx := ⟨fun a b => funext fun d => d.elim0⟩
  obtain ⟨h123, h4⟩ := IntOp.andi_eq_one.1 h0
  obtain ⟨h12, h3⟩ := IntOp.andi_eq_one.1 h123
  obtain ⟨h1, h2⟩ := IntOp.andi_eq_one.1 h12
  -- every element of each compared array is 1
  have e1 := fun i => Host.reduce_andi_all _ _ _ _ _ h1 i
  have e2 := fun i => Host.reduce_andi_all _ _ _ _ _ h2 i
  have e3 := fun i => Host.reduce_andi_all _ _ _ _ _ h3 i
  have e4 := fun i => Host.reduce_andi_all _ _ _ _ _ h4 i
  -- an element of `|a| < +inf`
  have fin : ∀ (a : EReal), Ideal.cmp .olt (max a (-a)) (Ideal.ofBits .f32 0x7F800000#32) = 1#1 → ∃ r : ℝ, a = (r : EReal) := by
    intro a ha
    rw [ofBits_inf] at ha
    exact real_of_abs_lt_top a (lt_of_cmp_olt ha)
  refine ⟨fun i => fin _ (e1 i), fun i => fin _ (e2 i), fun i => ?_⟩
  obtain ⟨r, hr⟩ := fin _ (e3 i)
  refine ⟨r, hr, ?_⟩
  have hp : Ideal.cmp .ogt (cov i) (Ideal.ofBits .f32 0x00000000#32) = 1#1 := e4 i
  rw [Ideal.ofBits_zero_f32, hr] at hp
  exact EReal.coe_pos.1 (lt_of_cmp_ogt hp)

end Cert.Loglik

end
-- ==== Proof.Algebra.lean ====
/-
  The two arrangements of the log-likelihood agree when the data are real numbers and the variances are positive.
-/
import proofs.«118142_j10831907520641_1_alg».proof.Proof.Spec

noncomputable section

namespace Cert.Loglik

open Idealize.ShloMosaic Idealize.ShloMosaic.ValueIdx

/-! The literals as real numbers. -/

private theorem cOne_eq : cOne = ((1 : ℝ) : EReal) := by
  simp [cOne, Ideal.ofBits, Ideal.ieee, -EReal.coe_mul]; norm_num

private theorem cZero_eq : cZero = ((0 : ℝ) : EReal) := by
  simp [cZero, Ideal.ofBits, Ideal.ieee]

private theorem cTwo_eq : cTwo = ((2 : ℝ) : EReal) := by
  simp [cTwo, Ideal.ofBits, Ideal.ieee, -EReal.coe_mul]; norm_num

private theorem cNegHalf_eq : cNegHalf = ((-(1 / 2) : ℝ) : EReal) := by
  simp [cNegHalf, Ideal.ofBits, Ideal.ieee, -EReal.coe_mul]; norm_num

private theorem cDim_eq : cDim = ((1024 : ℝ) : EReal) := by
  simp [cDim, Ideal.ofBits, Ideal.ieee, -EReal.coe_mul]; norm_num

/-- The word of `log 2π`: significand `2^23 + 0x6B3F8E = 15417230`, exponent `0`. -/
private theorem cLog2pi_eq : cLog2pi = ((15417230 / 8388608 : ℝ) : EReal) := by
  simp [cLog2pi, Ideal.ofBits, Ideal.ieee, -EReal.coe_mul]; norm_num

/-- The folded word: the same significand, exponent `10`, so it is exactly `1024` times the word of `log 2π`. -/
private theorem cDimLog2pi_eq : cDimLog2pi = ((15417230 / 8192 : ℝ) : EReal) := by
  simp [cDimLog2pi, Ideal.ofBits, Ideal.ieee, -EReal.coe_mul]; norm_num

/-- A finite sum of real numbers, taken in the extended reals, is the real sum. -/
private theorem sum_coe {ι : Type*} (s : Finset ι) (f : ι → ℝ) :
    ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- The precision of a positive real variance `r` is the real number `1 / r`. -/
private theorem prec_eq (cov : MArr) (m : Fin 2000) (k : Fin 1024) (r : ℝ)
    (h : cov (ix2 m k) = (r : EReal)) (hr : 0 < r) : prec cov m k = ((1 / r : ℝ) : EReal) := by
  rw [prec, h, Ideal.div_coe hr.ne', cOne_eq, ← EReal.coe_mul, one_mul]

/-- The scalar identity: distributivity over the real part, the logarithmic part `Lp` carried along unchanged. -/
private theorem scalar_eq (h C C4 c5 a S : ℝ) (hC : C = C4 * c5) (Lp : EReal) :
    (h : EReal) * (a : EReal) + ((h : EReal) * ((C : EReal) + (S : EReal)) + Lp)
      = (h : EReal) * ((C4 : EReal) * (c5 : EReal) + ((a : EReal) + (S : EReal))) + Lp := by
  rw [← add_assoc]
  congr 1
  subst hC
  simp only [← EReal.coe_mul, ← EReal.coe_add]
  congr 1
  ring

/-- With every entry of `x`, `mu` and `cov` a real number and every variance positive, the kernel's arrangement
    of the log-likelihood equals the reference's. -/
theorem kerValue_eq_refValue (x : XArr) (mu cov : MArr)
    (hx : ∀ i, ∃ r : ℝ, x i = (r : EReal)) (hmu : ∀ i, ∃ r : ℝ, mu i = (r : EReal))
    (hcov : ∀ i, ∃ r : ℝ, cov i = (r : EReal) ∧ 0 < r) (b : Fin 16) (t : Fin 1024) (m : Fin 2000) :
    kerValue x mu cov b t m = refValue x mu cov b t m := by
  choose xr hxr using hx
  choose mr hmr using hmu
  choose cr hcr using hcov
  have hp : ∀ k, prec cov m k = ((1 / cr (ix2 m k) : ℝ) : EReal) :=
    fun k => prec_eq cov m k _ (hcr _).1 (hcr _).2
  have hsq : sqTerm x cov b t m
      = ((∑ k : Fin 1024, xr (ix3 b t k) * xr (ix3 b t k) * (1 / cr (ix2 m k)) : ℝ) : EReal) := by
    rw [sqTerm, ← sum_coe]
    refine Finset.sum_congr rfl fun k _ => ?_
    rw [hxr, hp, ← EReal.coe_mul, ← EReal.coe_mul]
  have hcross : crossTerm x mu cov b t m
      = ((∑ k : Fin 1024, xr (ix3 b t k) * (mr (ix2 m k) * (1 / cr (ix2 m k))) : ℝ) : EReal) := by
    rw [crossTerm, ← sum_coe]
    refine Finset.sum_congr rfl fun k _ => ?_
    rw [hxr, hmr, hp, ← EReal.coe_mul, ← EReal.coe_mul]
  have hmean : meanTerm mu cov m
      = ((0 + ∑ k : Fin 1024, mr (ix2 m k) * mr (ix2 m k) * (1 / cr (ix2 m k)) : ℝ) : EReal) := by
    rw [meanTerm, cZero_eq, EReal.coe_add, ← sum_coe]
    congr 1
    refine Finset.sum_congr rfl fun k _ => ?_
    rw [hmr, hp, ← EReal.coe_mul, ← EReal.coe_mul]
  rw [kerValue, refValue, hsq, hcross, hmean, cNegHalf_eq, cTwo_eq, cDimLog2pi_eq, cDim_eq, cLog2pi_eq,
    ← EReal.coe_mul (2 : ℝ), ← EReal.coe_sub]
  exact scalar_eq _ _ _ _ _ _ (by norm_num) _

end Cert.Loglik

end
-- ==== Proof.RefValue.lean ====
/-
  The reference's result, read at an index, is `refValue`.
-/
import proofs.«118142_j10831907520641_1_alg».proof.Proof.Gen.ReferenceIdeal.Read
import proofs.«118142_j10831907520641_1_alg».proof.Proof.Spec

noncomputable section

namespace Cert.Loglik

open Idealize.ShloMosaic Idealize.ShloMosaic.ValueIdx
open Cert.ReferenceIdeal.Read

/-! The index maps of the contractions and of the row sums, at `(b, t, m)` and a feature `k`. -/

/-- The left operand of either contraction is read at `(b, t, k)`. -/
private theorem lidx_eq (b : Fin 16) (t : Fin 1024) (m : Fin 2000) (k : Fin 1024) :
    lidx_main_v3 (ix3 b t m) k = ix3 b t k :=
  funext fun a => Fin.ext (by match a with | ⟨0, _⟩ => rfl | ⟨1, _⟩ => rfl | ⟨2, _⟩ => rfl)

/-- The right operand of either contraction is read at `(m, k)`. -/
private theorem ridx_eq (b : Fin 16) (t : Fin 1024) (m : Fin 2000) (k : Fin 1024) :
    ridx_main_v3 (ix3 b t m) k = ix2 m k :=
  funext fun a => Fin.ext (by match a with | ⟨0, _⟩ => rfl | ⟨1, _⟩ => rfl)

/-- A per-component row sum, broadcast back to `(b, t, m)`, reads its operand at `(m, k)`. -/
private theorem rowidx_eq (b : Fin 16) (t : Fin 1024) (m : Fin 2000) (k : Fin 1024) :
    idx_main_v11 (idx_main_v12 (idx_main_v13 (ix3 b t m))) k = ix2 m k :=
  funext fun a => Fin.ext (by match a with | ⟨0, _⟩ => rfl | ⟨1, _⟩ => rfl)

/-! The stages, one quantity of the specification each. -/

/-- The quotient `1 / cov` at `(m, k)` is the precision. -/
private theorem prec_apply (cov : MArr) (m : Fin 2000) (k : Fin 1024) :
    val_main_v1 (F := Ideal) cov (ix2 m k) = prec cov m k := by
  rw [val_main_v1_apply, val_main_v0_apply, val_main_cst_apply]
  rfl

/-- The first contraction is `Σ_k (x_k · x_k) · prec_k`. -/
private theorem sq_apply (x : XArr) (cov : MArr) (b : Fin 16) (t : Fin 1024) (m : Fin 2000) :
    val_main_v3 (F := Ideal) x cov (ix3 b t m) = sqTerm x cov b t m := by
  rw [val_main_v3_apply]
  unfold sqTerm
  refine Finset.sum_congr rfl fun k _ => ?_
  rw [lidx_eq, ridx_eq, prec_apply, val_main_v2_apply]
  rfl

/-- The second contraction is `Σ_k x_k · (mu_k · prec_k)`. -/
private theorem cross_apply (x : XArr) (mu cov : MArr) (b : Fin 16) (t : Fin 1024) (m : Fin 2000) :
    val_main_v5 (F := Ideal) x mu cov (ix3 b t m) = crossTerm x mu cov b t m := by
  rw [val_main_v5_apply]
  unfold crossTerm
  refine Finset.sum_congr rfl fun k _ => ?_
  rw [show lidx_main_v5 (ix3 b t m) k = ix3 b t k from lidx_eq b t m k,
    show ridx_main_v5 (ix3 b t m) k = ix2 m k from ridx_eq b t m k, val_main_v4_apply, prec_apply]
  rfl

/-- The broadcast row sum of `(mu · mu) · prec` is `0 + Σ_k (mu_k · mu_k) · prec_k`. -/
private theorem mean_apply (mu cov : MArr) (b : Fin 16) (t : Fin 1024) (m : Fin 2000) :
    val_main_v13 (F := Ideal) mu cov (ix3 b t m) = meanTerm mu cov m := by
  rw [val_main_v13_apply, val_main_v12_apply, val_main_v11_apply, val_main_cst_1_apply]
  unfold meanTerm
  refine congrArg (_ + ·) (Finset.sum_congr rfl fun k _ => ?_)
  rw [rowidx_eq, val_main_v10_apply, val_main_v9_apply, prec_apply]
  rfl

/-- The broadcast halved row sum of `log cov` is `-1/2 · (0 + Σ_k log cov_k)`. -/
private theorem log_apply (cov : MArr) (b : Fin 16) (t : Fin 1024) (m : Fin 2000) :
    val_main_v25 (F := Ideal) cov (ix3 b t m) = cNegHalf * logTerm cov m := by
  rw [val_main_v25_apply, val_main_v24_apply, val_main_v18_apply, val_main_v17_apply, val_main_cst_3_apply,
    val_main_v16_apply, val_main_cst_2_apply]
  unfold logTerm
  rw [Ideal.mulf_def]
  refine congrArg (_ * ·) (congrArg (_ + ·) (Finset.sum_congr rfl fun k _ => ?_))
  rw [show idx_main_v16 (idx_main_v24 (idx_main_v25 (ix3 b t m))) k = ix2 m k from rowidx_eq b t m k,
    val_main_v15_apply]
  rfl

/-- The reference's last stage at `(b, t, m)`. -/
theorem ref_apply (x : XArr) (mu cov : MArr) (b : Fin 16) (t : Fin 1024) (m : Fin 2000) :
    Cert.ReferenceIdeal.Read.val_main_v26 (F := Ideal) x mu cov (ix3 b t m) = refValue x mu cov b t m := by
  rw [val_main_v26_apply, val_main_v23_apply, val_main_v22_apply, val_main_cst_6_apply, val_main_v21_apply,
    val_main_v20_apply, val_main_v19_apply, val_main_cst_4_apply, val_main_cst_5_apply, val_main_v14_apply,
    val_main_v8_apply, val_main_v7_apply, val_main_v6_apply, val_main_cst_0_apply,
    sq_apply, cross_apply, mean_apply, log_apply]
  rfl

end Cert.Loglik

end
-- ==== Proof.Body.lean ====
/-
  The kernel body's one stored value, read at an entry.

  At row `p` and column `q` of a block the body stores
      -1/2 · (Σ_k x²[p,k] · A[k,q]  −  2 · Σ_k x[p,k] · B[k,q])  +  bias[0,q],
  where `x` is the block of frames, `A` and `B` the two resident matrices and `bias` the resident row:
  two matrix products into a zero accumulator, each a plain sum over the contracted axis on the extended reals,
  and pointwise arithmetic around them.
-/
import proofs.«118142_j10831907520641_1_alg».proof.Proof.Gen.KernelIdeal.Skeleton
import proofs.«118142_j10831907520641_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.TcCoe
open Idealize.ShloMosaic.ValueIdx Cert.Loglik

/-! The operand indices of the product `[512,1024] × [1024,2048]` at output `(p, q)` and contraction index `k`
    are `(p, k)` and `(k, q)`. -/

theorem lhs_row (i : S512x2048.Idx) (q : dot_S512x1024_S1024x2048_S512x2048_1_0_0_1_n_n.contr.Idx) :
    (dot_S512x1024_S1024x2048_S512x2048_1_0_0_1_n_n.lhsIdx i q 0).val = (i 0).val := by
  unfold DotDims.lhsIdx
  rw [dif_neg (show ¬(0 : Fin S512x1024.rank) ∈ dot_S512x1024_S1024x2048_S512x2048_1_0_0_1_n_n.lhsBatch by decide), dif_pos (show (0 : Fin S512x1024.rank) ∈ dot_S512x1024_S1024x2048_S512x2048_1_0_0_1_n_n.lhsNonContracting by decide)]
  rfl
theorem lhs_contr (i : S512x2048.Idx) (q : dot_S512x1024_S1024x2048_S512x2048_1_0_0_1_n_n.contr.Idx) :
    (dot_S512x1024_S1024x2048_S512x2048_1_0_0_1_n_n.lhsIdx i q 1).val = (q ⟨0, by decide⟩).val :=
  dot_S512x1024_S1024x2048_S512x2048_1_0_0_1_n_n.lhsIdx_val_of_single rfl i q
theorem rhs_contr (i : S512x2048.Idx) (q : dot_S512x1024_S1024x2048_S512x2048_1_0_0_1_n_n.contr.Idx) :
    (dot_S512x1024_S1024x2048_S512x2048_1_0_0_1_n_n.rhsIdx i q 0).val = (q ⟨0, by decide⟩).val :=
  dot_S512x1024_S1024x2048_S512x2048_1_0_0_1_n_n.rhsIdx_val_of_single rfl i q
theorem rhs_col (i : S512x2048.Idx) (q : dot_S512x1024_S1024x2048_S512x2048_1_0_0_1_n_n.contr.Idx) :
    (dot_S512x1024_S1024x2048_S512x2048_1_0_0_1_n_n.rhsIdx i q 1).val = (i 1).val := by
  unfold DotDims.rhsIdx
  rw [dif_neg (show ¬(1 : Fin S1024x2048.rank) ∈ dot_S512x1024_S1024x2048_S512x2048_1_0_0_1_n_n.rhsBatch by decide), dif_pos (show (1 : Fin S1024x2048.rank) ∈ dot_S512x1024_S1024x2048_S512x2048_1_0_0_1_n_n.rhsNonContracting by decide)]
  rfl

/-- A matrix product into the zero accumulator, at `(p, q)`: the sum over `k` of `l[p,k] · r[k,q]`. -/
theorem product_apply (l : FVec Ideal S512x1024 .bf16) (r : FVec Ideal S1024x2048 .bf16) (p : Fin 512) (q : Fin 2048) :
    matmul dot_S512x1024_S1024x2048_S512x2048_1_0_0_1_n_n none l r (constant S512x2048 .f32 0x00000000#32) (ix2 p q)
      = ∑ k : Fin 1024, l (ix2 p k) * r (ix2 k q) := by
  simp only [matmul]
  rw [Ideal.matmul_constant_zero_apply, ← Equiv.sum_comp (ValueIdx.contrEquiv1 dot_S512x1024_S1024x2048_S512x2048_1_0_0_1_n_n 1024 rfl rfl).symm]
  refine Finset.sum_congr rfl fun k _ => ?_
  have hk := ValueIdx.contrEquiv1_symm_val dot_S512x1024_S1024x2048_S512x2048_1_0_0_1_n_n 1024 rfl rfl k
  have el : dot_S512x1024_S1024x2048_S512x2048_1_0_0_1_n_n.lhsIdx (ix2 p q) ((ValueIdx.contrEquiv1 dot_S512x1024_S1024x2048_S512x2048_1_0_0_1_n_n 1024 rfl rfl).symm k) = ix2 p k := funext fun a => Fin.ext (by
    match a with
    | ⟨0, _⟩ => exact lhs_row _ _
    | ⟨1, _⟩ => exact (lhs_contr _ _).trans hk)
  have er : dot_S512x1024_S1024x2048_S512x2048_1_0_0_1_n_n.rhsIdx (ix2 p q) ((ValueIdx.contrEquiv1 dot_S512x1024_S1024x2048_S512x2048_1_0_0_1_n_n 1024 rfl rfl).symm k) = ix2 k q := funext fun a => Fin.ext (by
    match a with
    | ⟨0, _⟩ => exact (rhs_contr _ _).trans hk
    | ⟨1, _⟩ => exact rhs_col _ _)
  rw [el, er]

/-- The stored value at `(p, q)`. -/
theorem payload_apply (x0 : Vec Ideal S512x1024 .f32) (x1 x2 : Vec Ideal S1024x2048 .bf16) (x3 : Vec Ideal S1x2048 .f32)
    (p : Fin 512) (q : Fin 2048) :
    k0_pay1 (F := Ideal) x0 x1 x2 x3 (ix2 p q)
      = cNegHalf * ((∑ k : Fin 1024, (x0 (ix2 p k) * x0 (ix2 p k)) * x1 (ix2 k q))
          - cTwo * ∑ k : Fin 1024, x0 (ix2 p k) * x2 (ix2 k q)) + x3 (ix2 (0 : Fin 1) q) := by
  unfold k0_pay1
  simp only [shapeCast_self]
  show FloatOps.ofBits (F := Ideal) .f32 0xBF000000#32
        * (matmul (F := Ideal) dot_S512x1024_S1024x2048_S512x2048_1_0_0_1_n_n none (truncf (F := Ideal) .bf16 (mulf (F := Ideal) (φ := .f32) x0 x0) bitsLt_bf16_f32) x1 (constant (F := Ideal) S512x2048 .f32 0x00000000#32) (ix2 p q)
          - FloatOps.ofBits (F := Ideal) .f32 0x40000000#32
            * matmul (F := Ideal) dot_S512x1024_S1024x2048_S512x2048_1_0_0_1_n_n none (truncf (F := Ideal) (φ := .f32) .bf16 x0 bitsLt_bf16_f32) x2 (constant (F := Ideal) S512x2048 .f32 0x00000000#32) (ix2 p q))
        + broadcastTo S512x2048 x3 broadcasts_S1x2048_S512x2048 (ix2 p q) = _
  rw [product_apply, product_apply, broadcastTo_1b_ab_apply]
  rfl

end Cert.KernelIdeal.Body

end
-- ==== Proof.Blocks.lean ====
/-
  The array the kernel region writes, as one function of the four arrays it reads.

  The grid has 32 points; point `t` reads rows `512·t … 512·t + 511` of the frames, the two resident matrices and
  the resident row whole, and writes rows `512·t … 512·t + 511` of the output, all 2048 columns. So entry
  `(r, q)` of the output is the body's value computed from row `r` of the frames, column `q` of the matrices and
  entry `q` of the row, and the 32 blocks tile the output.
-/
import proofs.«118142_j10831907520641_1_alg».proof.Proof.Gen.KernelIdeal.Frame
import proofs.«118142_j10831907520641_1_alg».proof.Proof.Body
import Idealize.ShloMosaic.Lib.Pipeline.Value

noncomputable section

namespace Cert.KernelIdeal.Blocks

open Cert.KernelIdeal Cert.KernelIdeal.Gen Idealize.ShloMosaic Idealize.ShloMosaic.TcCoe Idealize.SL.Sem
open Idealize.ShloMosaic.Pipeline (Dat)
open Idealize.ShloMosaic.ValueIdx Cert.Loglik

variable (m : (ℓ : Loc nD τ sig) → Buf (Elt Ideal) ℓ)

theorem hz : (![0, 0] : Fin 2 → Nat) = fun _ => 0 := funext fun a => by fin_cases a <;> rfl

/-- The body's value from row `r` of `X`, column `q` of `A` and `B`, and entry `q` of `bias`. -/
def entry (X : Vec Ideal S16384x1024 .f32) (A B : Vec Ideal S1024x2048 .bf16) (bias : Vec Ideal S1x2048 .f32)
    (r : Fin 16384) (q : Fin 2048) : EReal :=
  cNegHalf * ((∑ k : Fin 1024, (X (ix2 r k) * X (ix2 r k)) * A (ix2 k q))
      - cTwo * ∑ k : Fin 1024, X (ix2 r k) * B (ix2 k q)) + bias (ix2 (0 : Fin 1) q)

/-- The whole output array. -/
def outFn (X : Vec Ideal S16384x1024 .f32) (A B : Vec Ideal S1024x2048 .bf16) (bias : Vec Ideal S1x2048 .f32) :
    S16384x2048.Idx → EReal :=
  fun i => entry X A B bias ⟨(i 0).val, idx2_lt0 i⟩ ⟨(i 1).val, idx2_lt1 i⟩

theorem outFn_apply (X : Vec Ideal S16384x1024 .f32) (A B : Vec Ideal S1024x2048 .bf16) (bias : Vec Ideal S1x2048 .f32)
    (i : S16384x2048.Idx) (r : Fin 16384) (q : Fin 2048) (h0 : (i 0).val = r.val) (h1 : (i 1).val = q.val) :
    outFn X A B bias i = entry X A B bias r q := by
  show entry X A B bias ⟨(i 0).val, idx2_lt0 i⟩ ⟨(i 1).val, idx2_lt1 i⟩ = _
  rw [show (⟨(i 0).val, idx2_lt0 i⟩ : Fin 16384) = r from Fin.ext h0, show (⟨(i 1).val, idx2_lt1 i⟩ : Fin 2048) = q from Fin.ext h1]

/-- The body's value is `entry` once each block entry it reads is named as an entry of the arrays. -/
theorem entry_of_blocks (x0 : Vec Ideal S512x1024 .f32) (x1 x2 : Vec Ideal S1024x2048 .bf16) (x3 : Vec Ideal S1x2048 .f32)
    (X : Vec Ideal S16384x1024 .f32) (A B : Vec Ideal S1024x2048 .bf16) (bias : Vec Ideal S1x2048 .f32)
    (r : Fin 16384) (p : Fin 512) (q : Fin 2048)
    (h0 : ∀ k : Fin 1024, x0 (ix2 p k) = X (ix2 r k)) (h1 : ∀ k : Fin 1024, x1 (ix2 k q) = A (ix2 k q))
    (h2 : ∀ k : Fin 1024, x2 (ix2 k q) = B (ix2 k q)) (h3 : x3 (ix2 (0 : Fin 1) q) = bias (ix2 (0 : Fin 1) q)) :
    cNegHalf * ((∑ k : Fin 1024, (x0 (ix2 p k) * x0 (ix2 p k)) * x1 (ix2 k q))
        - cTwo * ∑ k : Fin 1024, x0 (ix2 p k) * x2 (ix2 k q)) + x3 (ix2 (0 : Fin 1) q)
      = entry X A B bias r q := by
  unfold entry
  rw [h3, Finset.sum_congr rfl fun k _ => show (x0 (ix2 p k) * x0 (ix2 p k)) * x1 (ix2 k q) = (X (ix2 r k) * X (ix2 r k)) * A (ix2 k q) by rw [h0 k, h1 k],
    Finset.sum_congr rfl fun k _ => show x0 (ix2 p k) * x2 (ix2 k q) = X (ix2 r k) * B (ix2 k q) by rw [h0 k, h2 k]]

/-- The printed index maps over the 32 points: the frames' window and the output's move one block of rows a point,
    the three resident windows stay at block `(0, 0)`. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

theorem point_lt (t : Fin cfg0.N) : t.val < 32 :=
  t.isLt.trans_eq (show cfg0.N = 32 from N_0)

/-- Row `p` of point `t`'s block is row `512·t + p` of the array. -/
def row (t : Fin cfg0.N) (p : Fin 512) : Fin 16384 := ⟨t.val * 512 + p.val, by have := point_lt t; omega⟩

/-- The frames' block at point `t`. -/
theorem blk_x (c : Dev nD) (t : Fin cfg0.N) (p : Fin 512) (k : Fin 1024) :
    (iblk m c 0 t : Vec Ideal S512x1024 .f32) (ix2 p k) = V m c main_v0 (ix2 (row t p) k) := by
  obtain ⟨e0, e1, -⟩ := idx_facts t
  unfold iblk
  rw [View.read_apply]
  show V m c main_v0 _ = V m c main_v0 _
  congr 1
  funext a
  apply Fin.ext
  match a with
  | ⟨0, _⟩ => show win0_0.index t (0 : Fin 2) * 512 + 1 * p.val = t.val * 512 + p.val; rw [e0]; omega
  | ⟨1, _⟩ => show win0_0.index t (1 : Fin 2) * 1024 + 1 * k.val = k.val; rw [e1]; omega

/-- The first resident matrix, whole at every point. -/
theorem blk_a (c : Dev nD) (t : Fin cfg0.N) (k : Fin 1024) (q : Fin 2048) :
    (iblk m c 1 t : Vec Ideal S1024x2048 .bf16) (ix2 k q) = V m c main_v21 (ix2 k q) := by
  obtain ⟨-, -, e0, e1, -⟩ := idx_facts t
  unfold iblk
  rw [View.read_apply]
  show V m c main_v21 _ = V m c main_v21 _
  congr 1
  funext a
  apply Fin.ext
  match a with
  | ⟨0, _⟩ => show win0_1.index t (0 : Fin 2) * 1024 + 1 * k.val = k.val; rw [e0]; omega
  | ⟨1, _⟩ => show win0_1.index t (1 : Fin 2) * 2048 + 1 * q.val = q.val; rw [e1]; omega

/-- The second resident matrix, whole at every point. -/
theorem blk_b (c : Dev nD) (t : Fin cfg0.N) (k : Fin 1024) (q : Fin 2048) :
    (iblk m c 2 t : Vec Ideal S1024x2048 .bf16) (ix2 k q) = V m c main_v23 (ix2 k q) := by
  obtain ⟨-, -, -, -, e0, e1, -⟩ := idx_facts t
  unfold iblk
  rw [View.read_apply]
  show V m c main_v23 _ = V m c main_v23 _
  congr 1
  funext a
  apply Fin.ext
  match a with
  | ⟨0, _⟩ => show win0_2.index t (0 : Fin 2) * 1024 + 1 * k.val = k.val; rw [e0]; omega
  | ⟨1, _⟩ => show win0_2.index t (1 : Fin 2) * 2048 + 1 * q.val = q.val; rw [e1]; omega

/-- The resident row, whole at every point. -/
theorem blk_bias (c : Dev nD) (t : Fin cfg0.N) (q : Fin 2048) :
    (iblk m c 3 t : Vec Ideal S1x2048 .f32) (ix2 (0 : Fin 1) q) = V m c main_v19 (ix2 (0 : Fin 1) q) := by
  obtain ⟨-, -, -, -, -, -, e0, e1, -⟩ := idx_facts t
  unfold iblk
  rw [View.read_apply]
  show V m c main_v19 _ = V m c main_v19 _
  congr 1
  funext a
  apply Fin.ext
  match a with
  | ⟨0, _⟩ => show win0_3.index t (0 : Fin 2) * 1 + 1 * 0 = 0; rw [e0]
  | ⟨1, _⟩ => show win0_3.index t (1 : Fin 2) * 2048 + 1 * q.val = q.val; rw [e1]; omega

/-- What point `t` writes back is block `t` of `outFn` of the four arrays the region finds. -/
theorem flushed_eq (c : Dev nD) (t : Fin cfg0.N) :
    (dats m 0 c).flushed 4 t
      = ((cfg0.win 4).blk t).view.read (Elt Ideal) (outFn (V m c main_v0) (V m c main_v21) (V m c main_v23) (V m c main_v19)) := by
  show (cfg0.win 4).cut (grid0.coords t) ((dats m 0 c).after 4 t) = _
  rw [after0_4]
  unfold out0_4
  rw [View.canon_unit_zero hz]
  simp only [View.ld_unit_zero (S := S512x1024) hz, View.ld_unit_zero (S := S1024x2048) hz, View.ld_unit_zero (S := S1x2048) hz]
  obtain ⟨-, -, -, -, -, -, -, -, e0, e1⟩ := idx_facts t
  funext j
  obtain ⟨p, q, rfl⟩ : ∃ (p : Fin 512) (q : Fin 2048), j = ix2 p q := ⟨j 0, j 1, eq_ix2 j⟩
  rw [View.read_apply]
  refine (Body.payload_apply (iblk m c 0 t) (iblk m c 1 t) (iblk m c 2 t) (iblk m c 3 t) p q).trans ?_
  refine Eq.trans ?_ (outFn_apply _ _ _ _ _ (row t p) q ?_ ?_).symm
  · exact entry_of_blocks (iblk m c 0 t) (iblk m c 1 t) (iblk m c 2 t) (iblk m c 3 t)
      (V m c main_v0) (V m c main_v21) (V m c main_v23) (V m c main_v19) (row t p) p q
      (fun k => blk_x m c t p k) (fun k => blk_a m c t k q) (fun k => blk_b m c t k q) (blk_bias m c t q)
  · show win0_4.index t (0 : Fin 2) * 512 + 1 * p.val = t.val * 512 + p.val
    rw [e0]; omega
  · show win0_4.index t (1 : Fin 2) * 2048 + 1 * q.val = q.val
    rw [e1]; omega

/-- An index of the output is in point `t`'s block iff each coordinate is in the block's range. -/
theorem mem_blk (t : Fin cfg0.N) (i : S16384x2048.Idx) :
    i ∈ ((cfg0.win 4).blk t).view.set ↔ ∀ a : Fin 2, win0_4.index t a * S512x2048.size a ≤ (i a).val ∧ (i a).val < win0_4.index t a * S512x2048.size a + S512x2048.size a := by
  show i ∈ ((View.whole main_v24).slice (win0_4.rect t)).set ↔ _
  rw [View.set_slice_whole, Rect.mem_set_unit]
  exact Iff.rfl

/-- The 32 blocks cover the output: row `r` is in the block of point `r / 512`. -/
theorem cover (i : S16384x2048.Idx) :
    ∃ t : Fin cfg0.N, (cfg0.win 4).flush t = true ∧ i ∈ ((cfg0.win 4).blk t).view.set := by
  have h0 : (i 0).val < 16384 := idx2_lt0 i
  have h1 : (i 1).val < 2048 := idx2_lt1 i
  have ht : (i 0).val / 512 < cfg0.N := by rw [show cfg0.N = 32 from N_0]; omega
  obtain ⟨-, -, -, -, -, -, -, -, e0, e1⟩ := idx_facts ⟨(i 0).val / 512, ht⟩
  refine ⟨⟨(i 0).val / 512, ht⟩, flush0_4 _, ?_⟩
  rw [mem_blk]
  intro a
  match a with
  | ⟨0, _⟩ =>
    show win0_4.index ⟨(i 0).val / 512, ht⟩ (0 : Fin 2) * 512 ≤ (i 0).val ∧ (i 0).val < win0_4.index ⟨(i 0).val / 512, ht⟩ (0 : Fin 2) * 512 + 512
    rw [e0]; show (i 0).val / 512 * 512 ≤ (i 0).val ∧ (i 0).val < (i 0).val / 512 * 512 + 512; omega
  | ⟨1, _⟩ =>
    show win0_4.index ⟨(i 0).val / 512, ht⟩ (1 : Fin 2) * 2048 ≤ (i 1).val ∧ (i 1).val < win0_4.index ⟨(i 0).val / 512, ht⟩ (1 : Fin 2) * 2048 + 2048
    rw [e1]; omega

/-- The output array after the region. -/
theorem final (c : Dev nD) :
    (dats m 0 c).arrAt 4 cfg0.N = outFn (V m c main_v0) (V m c main_v21) (V m c main_v23) (V m c main_v19) :=
  (dats m 0 c).arrAt_eq_of_cover 4 _ (fun t _ => flushed_eq m c t) cover

end Cert.KernelIdeal.Blocks

end
-- ==== Proof.Entry.lean ====
/-
  The four arrays the kernel region finds, read at an index in terms of the argument arrays.
-/
import proofs.«118142_j10831907520641_1_alg».proof.Proof.Gen.KernelIdeal.Frame
import proofs.«118142_j10831907520641_1_alg».proof.Proof.Spec
import Idealize.ShloMosaic.Lib.StableHlo.Run
import Idealize.ShloMosaic.Lib.Pipeline.Value
import Idealize.ShloMosaic.Lib.ValueLayout
import Idealize.ShloMosaic.Lib.KernelVsHost
import Idealize.ShloMosaic.Lib.IdealHost

noncomputable section

namespace Cert.KernelIdeal.Entry

open Cert.KernelIdeal Cert.KernelIdeal.Gen Idealize.ShloMosaic Idealize.ShloMosaic.TcCoe Idealize.SL.Sem
open Idealize.ShloMosaic.ValueIdx Cert.Loglik

variable (m : (ℓ : Loc nD τ sig) → Buf (Elt Ideal) ℓ)

/-- The three argument arrays as launched. -/
abbrev xArg (c : Dev nD) : XArr := m ((c : Thread nD τ).loc main_arg0)
abbrev muArg (c : Dev nD) : MArr := m ((c : Thread nD τ).loc main_arg1)
abbrev covArg (c : Dev nD) : MArr := m ((c : Thread nD τ).loc main_arg2)

/-! ## The program's intermediate arrays, over the argument arrays -/

/-- A word broadcast to the 2000 components. -/
private abbrev bcS (w : BitVec 32) : FVec Ideal S2000 .f32 :=
  broadcastInDim S2000 ![] bcast_S_S2000 (constant (F := Ideal) S_ .f32 w)

/-- The padding value: the integer `0` converted. -/
private abbrev padVal : FVec Ideal S_ .f32 := sitofp (F := Ideal) .f32 (constantI S_ 32 0#32)

/-- The precision array: a broadcast `1.0` divided by the variances. -/
private abbrev precArr (cov : MArr) : MArr :=
  Host.divf (broadcastInDim S2000x1024 ![] bcast_S_S2000x1024 (constant (F := Ideal) S_ .f32 0x3F800000#32)) cov

/-- The host sum over the features, from `0.0`. -/
private abbrev rowSum (y : MArr) : FVec Ideal S2000 .f32 :=
  Host.reduceAdd y (constant (F := Ideal) S_ .f32 0x00000000#32) reducesTo_S2000x1024_S2000_d1 h_S_

/-- The per-component term before padding. -/
private abbrev biasArr (mu cov : MArr) : FVec Ideal S2000 .f32 :=
  addf (mulf (bcS 0xBF000000#32) (addf (bcS 0x44EB3F8E#32) (rowSum (mulf (mulf mu mu) (precArr cov)))))
    (mulf (bcS 0xBF000000#32) (rowSum (Host.log cov)))

/-! ## Each stage read at an index -/

private theorem bcS_apply (w : BitVec 32) (i : S2000.Idx) : bcS w i = Ideal.ofBits .f32 w := by
  show broadcastInDim S2000 ![] bcast_S_S2000 (constant (F := Ideal) S_ .f32 w) i = _
  rw [broadcastInDim_scalar_apply]; rfl

private theorem precArr_apply (cov : MArr) (q : Fin 2000) (k : Fin 1024) :
    precArr cov (ix2 q k) = prec cov q k := by
  show Ideal.div (broadcastInDim S2000x1024 ![] bcast_S_S2000x1024 (constant (F := Ideal) S_ .f32 0x3F800000#32) (ix2 q k))
    (cov (ix2 q k)) = _
  rw [broadcastInDim_scalar_apply]; rfl

/-- A row below 2000 of the padded table is the table's row. -/
private theorem pad2_apply {α : Type} (x : S2000x1024.Idx → α) (v : S_.Idx → α) (q : Fin 2000) (k : Fin 1024) :
    pad S2048x1024 ![0, 0] ![48, 0] ![0, 0] x v pads_S2000x1024_S2048x1024_0480_000 h_S_
      (ix2 (⟨q.val, by omega⟩ : Fin 2048) k) = x (ix2 q k) :=
  pad_apply_of_inside _ _ _ x v _ _ _ _ fun a => match a with
    | ⟨0, _⟩ => by show q.val = 0 + q.val * (0 + 1); omega
    | ⟨1, _⟩ => by show k.val = 0 + k.val * (0 + 1); omega

/-- An entry below 2000 of the padded vector is the vector's entry. -/
private theorem pad1_apply {α : Type} (x : S2000.Idx → α) (v : S_.Idx → α) (q : Fin 2000) :
    pad S2048 ![0] ![48] ![0] x v pads_S2000_S2048_0480 h_S_ (ix1 (⟨q.val, by omega⟩ : Fin 2048)) = x (ix1 q) :=
  pad_apply_of_inside _ _ _ x v _ _ _ _ fun a => match a with
    | ⟨0, _⟩ => by show q.val = 0 + q.val * (0 + 1); omega

/-- The host sum of a table's row `q`: `0.0` plus the sum over the features. -/
private theorem rowSum_apply (y : MArr) (q : Fin 2000) :
    rowSum y (ix1 q) = cZero + ∑ k : Fin 1024, y (ix2 q k) := by
  show Host.reduceAdd y (constant (F := Ideal) S_ .f32 0x00000000#32) reducesTo_S2000x1024_S2000_d1 h_S_ (ix1 q) = _
  simp only [Host.reduceAdd, Ideal.hostReduceAdd_def]
  rw [Ideal.hostReduceAdd_single reducesTo_S2000x1024_S2000_d1 (by decide)]
  refine congrArg₂ (· + ·) rfl (Finset.sum_congr rfl fun k _ => ?_)
  exact congrArg y (funext fun a => Fin.ext (by match a with | ⟨0, _⟩ => rfl | ⟨1, _⟩ => rfl))

private theorem meanSum_apply (mu cov : MArr) (q : Fin 2000) :
    rowSum (mulf (mulf mu mu) (precArr cov)) (ix1 q) = meanTerm mu cov q := by
  rw [rowSum_apply]
  refine congrArg (cZero + ·) (Finset.sum_congr rfl fun k _ => ?_)
  show (mu (ix2 q k) * mu (ix2 q k)) * precArr cov (ix2 q k) = _
  rw [precArr_apply]

private theorem logSum_apply (cov : MArr) (q : Fin 2000) :
    rowSum (Host.log cov) (ix1 q) = logTerm cov q := by
  rw [rowSum_apply]; rfl

private theorem biasArr_apply (mu cov : MArr) (q : Fin 2000) :
    biasArr mu cov (ix1 q) = cNegHalf * (cDimLog2pi + meanTerm mu cov q) + cNegHalf * logTerm cov q := by
  show bcS 0xBF000000#32 (ix1 q) * (bcS 0x44EB3F8E#32 (ix1 q) + rowSum (mulf (mulf mu mu) (precArr cov)) (ix1 q))
      + bcS 0xBF000000#32 (ix1 q) * rowSum (Host.log cov) (ix1 q) = _
  rw [meanSum_apply, logSum_apply, bcS_apply, bcS_apply]; rfl

/-! ## The four buffers as terms of the argument arrays -/

section Terms
open Idealize.ShloMosaic.StableHlo

private theorem val_v0 (c : Dev nD) :
    (V m c main_v0 : S16384x1024.Idx → EReal)
      = shapeCast S16384x1024 (xArg m c) shapeCasts_S16x1024x1024_S16384x1024 := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results
  rfl

private theorem val_v21 (c : Dev nD) :
    (V m c main_v21 : S1024x2048.Idx → EReal)
      = truncf .bf16 (transpose S1024x2048 [1, 0]
          (pad S2048x1024 ![0, 0] ![48, 0] ![0, 0] (precArr (covArg m c)) padVal
            pads_S2000x1024_S2048x1024_0480_000 h_S_)
          transposes_S2048x1024_S1024x2048_1_0) bitsLt_bf16_f32 := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results
  rfl

private theorem val_v23 (c : Dev nD) :
    (V m c main_v23 : S1024x2048.Idx → EReal)
      = truncf .bf16 (transpose S1024x2048 [1, 0]
          (pad S2048x1024 ![0, 0] ![48, 0] ![0, 0] (mulf (muArg m c) (precArr (covArg m c))) padVal
            pads_S2000x1024_S2048x1024_0480_000 h_S_)
          transposes_S2048x1024_S1024x2048_1_0) bitsLt_bf16_f32 := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results
  rfl

private theorem val_v19 (c : Dev nD) :
    (V m c main_v19 : S1x2048.Idx → EReal)
      = shapeCast S1x2048 (pad S2048 ![0] ![48] ![0] (biasArr (muArg m c) (covArg m c)) padVal pads_S2000_S2048_0480 h_S_)
          shapeCasts_S2048_S1x2048 := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp
  rfl

end Terms

/-- Row `b·1024 + t` of the flattened frames is frame `(b, t)`. -/
theorem entry_x (c : Dev nD) (b : Fin 16) (t : Fin 1024) (k : Fin 1024) :
    V m c main_v0 (ix2 (⟨b.val * 1024 + t.val, by omega⟩ : Fin 16384) k) = xArg m c (ix3 b t k) := by
  refine (congrFun (val_v0 m c) _).trans ?_
  exact shapeCast_apply _ _ _ _ (by rw [Shape.rowMajor_val_three, Shape.rowMajor_val_two]; rfl)

/-- The first matrix operand, at a column below 2000: the precision, transposed. -/
theorem entry_prec (c : Dev nD) (k : Fin 1024) (q : Fin 2000) :
    V m c main_v21 (ix2 k (⟨q.val, by omega⟩ : Fin 2048)) = prec (covArg m c) q k := by
  refine (congrFun (val_v21 m c) _).trans ?_
  refine (truncf_apply (ψ := .bf16) _ bitsLt_bf16_f32 _).trans ?_
  refine (transpose_ix2_apply _ _ _ _).trans ?_
  exact (pad2_apply _ _ q k).trans (precArr_apply _ q k)

/-- The second matrix operand, at a column below 2000: mean times precision, transposed. -/
theorem entry_muprec (c : Dev nD) (k : Fin 1024) (q : Fin 2000) :
    V m c main_v23 (ix2 k (⟨q.val, by omega⟩ : Fin 2048)) = muArg m c (ix2 q k) * prec (covArg m c) q k := by
  refine (congrFun (val_v23 m c) _).trans ?_
  refine (truncf_apply (ψ := .bf16) _ bitsLt_bf16_f32 _).trans ?_
  refine (transpose_ix2_apply _ _ _ _).trans ?_
  refine (pad2_apply _ _ q k).trans ?_
  exact congrArg (muArg m c (ix2 q k) * ·) (precArr_apply _ q k)

/-- The per-component row, at a column below 2000. -/
theorem entry_bias (c : Dev nD) (q : Fin 2000) :
    V m c main_v19 (ix2 (0 : Fin 1) (⟨q.val, by omega⟩ : Fin 2048))
      = cNegHalf * (cDimLog2pi + meanTerm (muArg m c) (covArg m c) q) + cNegHalf * logTerm (covArg m c) q := by
  refine (congrFun (val_v19 m c) _).trans ?_
  refine (shapeCast_a_1a_apply _ _ _ _).trans ?_
  exact (pad1_apply _ _ q).trans (biasArr_apply _ _ q)

end Cert.KernelIdeal.Entry

end
-- ==== Proof.Tail.lean ====
/-
  The kernel program's result, read at an index.

  After the region the program keeps the first 2000 of the 2048 columns and regroups the 16384 rows as 16 × 1024:
  entry `(b, t, q)` of the result is entry `(1024·b + t, q)` of the region's output.
-/
import proofs.«118142_j10831907520641_1_alg».proof.Proof.Blocks
import proofs.«118142_j10831907520641_1_alg».proof.Proof.Entry
import Idealize.ShloMosaic.Lib.StableHlo.Run

noncomputable section

namespace Cert.KernelIdeal.Tail

open Cert.KernelIdeal Cert.KernelIdeal.Gen Idealize.ShloMosaic Idealize.ShloMosaic.TcCoe Idealize.SL.Sem
open Idealize.ShloMosaic.Pipeline (Dat)
open Idealize.ShloMosaic.ValueIdx Cert.Loglik Cert.KernelIdeal.Entry Cert.KernelIdeal.Blocks

variable (m : (ℓ : Loc nD τ sig) → Buf (Elt Ideal) ℓ)

/-- The result buffer after the two host lines that follow the region. -/
theorem tail_eq (c : Dev nD) :
    (Pipeline.afterTail₀ cfgs (dats m) 0 (V0 m) [hostOps1] c main_v26 : S16x1024x2000.Idx → EReal)
      = shapeCast S16x1024x2000 (extractStridedSlice S16384x2000 ![0, 0]
          (outFn (V m c main_v0) (V m c main_v21) (V m c main_v23) (V m c main_v19)) slices_S16384x2048_S16384x2000_0_0)
          shapeCasts_S16384x2000_S16x1024x2000 := by
  unfold Pipeline.afterTail₀
  show StableHlo.after hostOps1 _ (Proc.devRef .tc main_v26) = _
  after_results
  have hw : Pipeline.withArrays (cfgs 0).spec c (V0 m c) (fun w => (dats m 0 c).arrAt w (cfgs 0).N) (Proc.devRef .tc main_v24)
      = outFn (V m c main_v0) (V m c main_v21) (V m c main_v23) (V m c main_v19) :=
    (Pipeline.withArrays_arr spec0 launch0.win.arr_inj c _ _ 4).trans (final m c)
  rw [hw]
  rfl

/-- The body's value is the kernel's arrangement of the log-likelihood once each array entry it reads is named:
    row `r` of the frames is frame `(b, t)`, column `q` of the matrices holds the precisions and the means times
    the precisions of component `q`, and entry `q` of the row its per-component term. -/
theorem entry_eq_kerValue (X : Vec Ideal S16384x1024 .f32) (A B : Vec Ideal S1024x2048 .bf16) (bias : Vec Ideal S1x2048 .f32)
    (x : XArr) (mu cov : MArr) (r : Fin 16384) (q' : Fin 2048) (b : Fin 16) (t : Fin 1024) (q : Fin 2000)
    (hX : ∀ k : Fin 1024, X (ix2 r k) = x (ix3 b t k)) (hA : ∀ k : Fin 1024, A (ix2 k q') = prec cov q k)
    (hB : ∀ k : Fin 1024, B (ix2 k q') = mu (ix2 q k) * prec cov q k)
    (hb : bias (ix2 (0 : Fin 1) q') = cNegHalf * (cDimLog2pi + meanTerm mu cov q) + cNegHalf * logTerm cov q) :
    entry X A B bias r q' = kerValue x mu cov b t q := by
  unfold entry kerValue sqTerm crossTerm
  rw [hb, Finset.sum_congr rfl fun k _ => show (X (ix2 r k) * X (ix2 r k)) * A (ix2 k q') = (x (ix3 b t k) * x (ix3 b t k)) * prec cov q k by rw [hX k, hA k],
    Finset.sum_congr rfl fun k _ => show X (ix2 r k) * B (ix2 k q') = x (ix3 b t k) * (mu (ix2 q k) * prec cov q k) by rw [hX k, hB k]]

/-- Entry `(b, t, q)` of the program's result is the kernel's arrangement of the log-likelihood of frame `(b, t)`
    under component `q`. -/
theorem result_apply (c : Dev nD) (b : Fin 16) (t : Fin 1024) (q : Fin 2000) :
    (Pipeline.afterTail₀ cfgs (dats m) 0 (V0 m) [hostOps1] c main_v26 : S16x1024x2000.Idx → EReal) (ix3 b t q)
      = kerValue (xArg m c) (muArg m c) (covArg m c) b t q := by
  rw [tail_eq]
  refine (shapeCast_apply _ shapeCasts_S16384x2000_S16x1024x2000 (ix3 b t q)
    (ix2 (⟨b.val * 1024 + t.val, by omega⟩ : Fin 16384) q) ?_).trans ?_
  · rw [Shape.rowMajor_val_two, Shape.rowMajor_val_three]
    show (b.val * 1024 + t.val) * 2000 + q.val = (b.val * 1024 + t.val) * 2000 + q.val
    rfl
  refine (extractStridedSlice_apply _ _ slices_S16384x2048_S16384x2000_0_0 (ix2 (⟨b.val * 1024 + t.val, by omega⟩ : Fin 16384) q)
    (ix2 (⟨b.val * 1024 + t.val, by omega⟩ : Fin 16384) (⟨q.val, by omega⟩ : Fin 2048)) ?_).trans ?_
  · intro a
    match a with
    | ⟨0, _⟩ => show b.val * 1024 + t.val = 0 + (b.val * 1024 + t.val); omega
    | ⟨1, _⟩ => show q.val = 0 + q.val; omega
  refine (outFn_apply _ _ _ _ _ (⟨b.val * 1024 + t.val, by omega⟩ : Fin 16384) (⟨q.val, by omega⟩ : Fin 2048) rfl rfl).trans ?_
  exact entry_eq_kerValue (V m c main_v0) (V m c main_v21) (V m c main_v23) (V m c main_v19)
    (xArg m c) (muArg m c) (covArg m c) _ _ b t q
    (fun k => entry_x m c b t k) (fun k => entry_prec m c k q) (fun k => entry_muprec m c k q) (entry_bias m c q)

end Cert.KernelIdeal.Tail

end
-- ==== Proof.lean ====
/-
  A diagonal-Gaussian log-likelihood, kernel against reference, over the extended reals.

  For every frame `(b, t)` of `x` (16 × 1024 frames of 1024 features) and every component `m` of a mixture of 2000
  diagonal Gaussians with means `mu` and variances `cov`, both programs compute
      -1/2 · (1024 · log 2π + Σ_k (x_k − mu_k)² / cov_k) − 1/2 · Σ_k log cov_k
  with the square expanded over the precision `1 / cov_k` (Proof/Spec.lean). The kernel's folded constant is the
  f32 word of `1024 · log 2π`, which is exactly 1024 times the reference's f32 word of `log 2π` (same significand,
  exponent 10 higher), so the two constants are one real number.

  The reference halves one bracket that holds the constant and the three sums; the kernel halves the two sums that
  depend on the frame inside its body (two matrix products over the feature axis, against the precisions and the
  means times the precisions, laid out transposed and padded from 2000 to 2048 columns) and adds a per-component
  row that the surrounding program prepared: the halved constant and third sum, and the log-determinant. Equality
  is distributivity of the factor -1/2 over a sum, which on the extended reals needs the summands finite: with a
  zero variance the precision is +∞ and the two arrangements differ (for instance x = mu = 1, cov = 0 gives -∞
  against +∞). Under the precondition every entry of `x`, `mu`, `cov` is a real number and every variance is
  positive (Proof/Domain.lean), so every precision, product and finite sum is real (Proof/Algebra.lean); the
  logarithms enter both sides as the same last summand and need no finiteness.

  The kernel's result is read off its run: the region's output array is one function of the four arrays the region
  finds (Proof/Body.lean, Proof/Blocks.lean), those four arrays are read in terms of the arguments
  (Proof/Entry.lean), and the two lines after the region keep the first 2000 columns and regroup the rows
  (Proof/Tail.lean). The reference's result is read one operation at a time (Proof/RefValue.lean).
-/
import proofs.«118142_j10831907520641_1_alg».proof.Defs
import proofs.«118142_j10831907520641_1_alg».proof.Proof.Gen.Kernel
import proofs.«118142_j10831907520641_1_alg».proof.Proof.Gen.Kernel.Skeleton
import proofs.«118142_j10831907520641_1_alg».proof.Proof.Gen.Kernel.Launch
import proofs.«118142_j10831907520641_1_alg».proof.Proof.Gen.Kernel.Points
import proofs.«118142_j10831907520641_1_alg».proof.Proof.Gen.Kernel.Frame
import proofs.«118142_j10831907520641_1_alg».proof.Proof.Gen.KernelIdeal
import proofs.«118142_j10831907520641_1_alg».proof.Proof.Gen.KernelIdeal.Skeleton
import proofs.«118142_j10831907520641_1_alg».proof.Proof.Gen.KernelIdeal.Launch
import proofs.«118142_j10831907520641_1_alg».proof.Proof.Gen.KernelIdeal.Points
import proofs.«118142_j10831907520641_1_alg».proof.Proof.Gen.KernelIdeal.Frame
import proofs.«118142_j10831907520641_1_alg».proof.Proof.Gen.ReferenceIdeal
import proofs.«118142_j10831907520641_1_alg».proof.Proof.Gen.ReferenceIdeal.Run
import proofs.«118142_j10831907520641_1_alg».proof.Proof.Gen.ReferenceIdeal.Read
import proofs.«118142_j10831907520641_1_alg».proof.Proof.Gen.Pre_finite_inputs
import proofs.«118142_j10831907520641_1_alg».proof.Proof.Domain
import proofs.«118142_j10831907520641_1_alg».proof.Proof.Algebra
import proofs.«118142_j10831907520641_1_alg».proof.Proof.RefValue
import proofs.«118142_j10831907520641_1_alg».proof.Proof.Tail
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel runs and leaves its arguments as launched. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: it runs, and its arguments stay. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The kernel's run over the extended reals with its result buffer named: what the two lines after the region leave. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v26)
            = Pipeline.afterTail₀ Cert.KernelIdeal.cfgs (Cert.KernelIdeal.Gen.dats m) 0 (Cert.KernelIdeal.Gen.V0 m) [Cert.KernelIdeal.Gen.hostOps1] c Cert.KernelIdeal.main_v26
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)) :=
  (θ_run Cert.KernelIdeal.defs _ _).mono (fun _ h c =>
    ⟨(h c).2 Cert.KernelIdeal.main_v26 (Pipeline.mem_restRefs_of Cert.KernelIdeal.main_v26 (by decide) (by decide)),
      ((h c).2 Cert.KernelIdeal.main_arg0 (Pipeline.mem_restRefs_of Cert.KernelIdeal.main_arg0 (by decide) (by decide))).trans (Cert.KernelIdeal.Gen.W_main_arg0 m (Cert.KernelIdeal.Gen.dats m) c),
      ((h c).2 Cert.KernelIdeal.main_arg1 (Pipeline.mem_restRefs_of Cert.KernelIdeal.main_arg1 (by decide) (by decide))).trans (Cert.KernelIdeal.Gen.W_main_arg1 m (Cert.KernelIdeal.Gen.dats m) c),
      ((h c).2 Cert.KernelIdeal.main_arg2 (Pipeline.mem_restRefs_of Cert.KernelIdeal.main_arg2 (by decide) (by decide))).trans (Cert.KernelIdeal.Gen.W_main_arg2 m (Cert.KernelIdeal.Gen.dats m) c)⟩)
    (Cert.KernelIdeal.Gen.run_main m ρ)

/-- From arguments that agree, the two programs end with equal results: entry by entry the kernel's arrangement of
    the log-likelihood against the reference's, equal because the precondition makes every summand a real number. -/
theorem algebraic : Cert.algebraic_KernelIdeal_ReferenceIdeal := by
  intro m ρ m' ρ' hpre hagree
  refine ⟨fun c => Pipeline.afterTail₀ Cert.KernelIdeal.cfgs (Cert.KernelIdeal.Gen.dats m) 0 (Cert.KernelIdeal.Gen.V0 m) [Cert.KernelIdeal.Gen.hostOps1] c Cert.KernelIdeal.main_v26,
    kernel_run m ρ, ?_⟩
  refine (θ_run Cert.ReferenceIdeal.defs _ _).mono (fun _ h c => ⟨?_, (h c).2⟩) (Cert.ReferenceIdeal.Value.run (F := Ideal) m' ρ')
  rw [(h c).1, Cert.ReferenceIdeal.Read.val_main_v26_eq, (hagree c).1, (hagree c).2.1, (hagree c).2.2]
  obtain ⟨hx, hmu, hcov⟩ := Cert.Loglik.domain_of_pre _ _ _ (hpre c)
  funext i
  obtain ⟨b, t, q, rfl⟩ : ∃ (b : Fin 16) (t : Fin 1024) (q : Fin 2000), i = ix3 b t q := ⟨i 0, i 1, i 2, eq_ix3 i⟩
  refine (Cert.Loglik.ref_apply _ _ _ b t q).trans ?_
  exact (Cert.Loglik.kerValue_eq_refValue _ _ _ hx hmu hcov b t q).symm.trans (Cert.KernelIdeal.Tail.result_apply m c b t q).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
